-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S2x2x64x64 : Shape := ⟨4, ![2, 2, 64, 64]⟩
abbrev S2x2x64 : Shape := ⟨3, ![2, 2, 64]⟩
abbrev S2x64x64 : Shape := ⟨3, ![2, 64, 64]⟩
abbrev S2x64 : Shape := ⟨2, ![2, 64]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1000000 : Shape := ⟨2, ![2, 1000000]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S2x2x64x64 : S_.BroadcastsInDim S2x2x64x64 (![] : Fin 0 → Fin S2x2x64x64.rank)
  reducesTo_S2x2x64x64_S_d0_1_2_3 : S2x2x64x64.ReducesTo [0, 1, 2, 3] S_
  bcast_S_S2x2x64 : S_.BroadcastsInDim S2x2x64 (![] : Fin 0 → Fin S2x2x64.rank)
  reducesTo_S2x2x64_S_d0_1_2 : S2x2x64.ReducesTo [0, 1, 2] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S128x64 .f32) (main_arg12 : FVec F S64 .f32) (main_arg13 : FVec F S64x1 .f32) (main_arg14 : FVec F S1 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg13
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg14 main_v63 main_v67

def fn_part2 {F : FTy → Type} [FloatOps F] (main_arg7 : FVec F S2x2x64x64 .f32) (main_arg8 : FVec F S2x2x64 .f32) (main_arg9 : FVec F S2x64x64 .f32) (main_arg10 : FVec F S2x64 .f32) (main_arg11 : FVec F S128x64 .f32) (main_arg12 : FVec F S64 .f32) (main_arg13 : FVec F S64x1 .f32) (main_arg14 : FVec F S1 .f32) (main_v33 : IVec S_ 1) : IVec S_ 1 :=
  let main_v34 : FVec F S2x2x64x64 .f32 := Host.absf main_arg7
  let main_cst_12 : FVec F S_ .f32 := constant S_ .f32 0x7F800000#32
  let main_v35 : FVec F S2x2x64x64 .f32 := broadcastInDim S2x2x64x64 ![] bcast_S_S2x2x64x64 main_cst_12
  let main_v36 : IVec S2x2x64x64 1 := cmpf .olt main_v34 main_v35
  let main_c_13 : IVec S_ 1 := constantI S_ 1 1#1
  let main_v37 : IVec S_ 1 := (fun x v => Host.reduce IntOp.andi x v reducesTo_S2x2x64x64_S_d0_1_2_3 h_S_) main_v36 main_c_13
  let main_v38 : IVec S_ 1 := andi main_v33 main_v37
  let main_v39 : FVec F S2x2x64 .f32 := Host.absf main_arg8
  let main_cst_14 : FVec F S_ .f32 := constant S_ .f32 0x7F800000#32
  let main_v40 : FVec F S2x2x64 .f32 := broadcastInDim S2x2x64 ![] bcast_S_S2x2x64 main_cst_14
  let main_v41 : IVec S2x2x64 1 := cmpf .olt main_v39 main_v40
  let main_c_15 : IVec S_ 1 := constantI S_ 1 1#1
  let main_v42 : IVec S_ 1 := (fun x v => Host.reduce IntOp.andi x v reducesTo_S2x2x64_S_d0_1_2 h_S_) main_v41 main_c_15
  let main_v43 : IVec S_ 1 := andi main_v38 main_v42
  let main_v44 : FVec F S2x64x64 .f32 := Host.absf main_arg9
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_arg13 main_arg14 main_v48 main_v49 main_v50

def fn_part1 {F : FTy → Type} [FloatOps F] (main_arg4 : FVec F S2x2x64 .f32) (main_arg5 : FVec F S2x2x64x64 .f32) (main_arg6 : FVec F S2x2x64 .f32) (main_arg7 : FVec F S2x2x64x64 .f32) (main_arg8 : FVec F S2x2x64 .f32) (main_arg9 : FVec F S2x64x64 .f32) (main_arg10 : FVec F S2x64 .f32) (main_arg11 : FVec F S128x64 .f32) (main_arg12 : FVec F S64 .f32) (main_arg13 : FVec F S64x1 .f32) (main_arg14 : FVec F S1 .f32) (main_v13 : IVec S_ 1) (main_v16 : IVec S2x2x64x64 1) : IVec S_ 1 :=
  let main_c_5 : IVec S_ 1 := constantI S_ 1 1#1
  let main_v17 : IVec S_ 1 := (fun x v => Host.reduce IntOp.andi x v reducesTo_S2x2x64x64_S_d0_1_2_3 h_S_) main_v16 main_c_5
  let main_v18 : IVec S_ 1 := andi main_v13 main_v17
  let main_v19 : FVec F S2x2x64 .f32 := Host.absf main_arg4
  let main_cst_6 : FVec F S_ .f32 := constant S_ .f32 0x7F800000#32
  let main_v20 : FVec F S2x2x64 .f32 := broadcastInDim S2x2x64 ![] bcast_S_S2x2x64 main_cst_6
  let main_v21 : IVec S2x2x64 1 := cmpf .olt main_v19 main_v20
  let main_c_7 : IVec S_ 1 := constantI S_ 1 1#1
  let main_v22 : IVec S_ 1 := (fun x v => Host.reduce IntOp.andi x v reducesTo_S2x2x64_S_d0_1_2 h_S_) main_v21 main_c_7
  let main_v23 : IVec S_ 1 := andi main_v18 main_v22
  let main_v24 : FVec F S2x2x64x64 .f32 := Host.absf main_arg5
  let main_cst_8 : FVec F S_ .f32 := constant S_ .f32 0x7F800000#32
  let main_v25 : FVec F S2x2x64x64 .f32 := broadcastInDim S2x2x64x64 ![] bcast_S_S2x2x64x64 main_cst_8
  let main_v26 : IVec S2x2x64x64 1 := cmpf .olt main_v24 main_v25
  let main_c_9 : IVec S_ 1 := constantI S_ 1 1#1
  let main_v27 : IVec S_ 1 := (fun x v => Host.reduce IntOp.andi x v reducesTo_S2x2x64x64_S_d0_1_2_3 h_S_) main_v26 main_c_9
  let main_v28 : IVec S_ 1 := andi main_v23 main_v27
  let main_v29 : FVec F S2x2x64 .f32 := Host.absf main_arg6
  let main_cst_10 : FVec F S_ .f32 := constant S_ .f32 0x7F800000#32
  let main_v30 : FVec F S2x2x64 .f32 := broadcastInDim S2x2x64 ![] bcast_S_S2x2x64 main_cst_10
  let main_v31 : IVec S2x2x64 1 := cmpf .olt main_v29 main_v30
  let main_c_11 : IVec S_ 1 := constantI S_ 1 1#1
  let main_v32 : IVec S_ 1 := (fun x v => Host.reduce IntOp.andi x v reducesTo_S2x2x64_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S500000x64 .f32) (main_arg1 : FVec F S500000x64 .f32) (main_arg2 : FVec F S500000x64 .f32) (main_arg3 : FVec F S2x2x64x64 .f32) (main_arg4 : FVec F S2x2x64 .f32) (main_arg5 : FVec F S2x2x64x64 .f32) (main_arg6 : FVec F S2x2x64 .f32) (main_arg7 : FVec F S2x2x64x64 .f32) (main_arg8 : FVec F S2x2x64 .f32) (main_arg9 : FVec F S2x64x64 .f32) (main_arg10 : FVec F S2x64 .f32) (main_arg11 : FVec F S128x64 .f32) (main_arg12 : FVec F S64 .f32) (main_arg13 : FVec F S64x1 .f32) (main_arg14 : FVec F S1 .f32) (main_arg15 : IVec S2x1000000 32) (main_arg16 : IVec S2x1000000 32) (main_arg17 : IVec S2x1000000 32) (main_arg18 : IVec S2x1000000 32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S2x2x64x64 .f32 := Host.absf main_arg3
  let main_cst_4 : FVec F S_ .f32 := constant S_ .f32 0x7F800000#32
  let main_v15 : FVec F S2x2x64x64 .f32 := broadcastInDim S2x2x64x64 ![] bcast_S_S2x2x64x64 main_cst_4
  let main_v16 : IVec S2x2x64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S500000x64 : Shape := ⟨2, ![500000, 64]⟩
abbrev S2x2x64x64 : Shape := ⟨4, ![2, 2, 64, 64]⟩
abbrev S2x2x64 : Shape := ⟨3, ![2, 2, 64]⟩
abbrev S2x64x64 : Shape := ⟨3, ![2, 64, 64]⟩
abbrev S2x64 : Shape := ⟨2, ![2, 64]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1000000 : Shape := ⟨2, ![2, 1000000]⟩
abbrev S500000x1 : Shape := ⟨2, ![500000, 1]⟩
abbrev S10000x64 : Shape := ⟨2, ![10000, 64]⟩
abbrev S10000x1 : Shape := ⟨2, ![10000, 1]⟩
abbrev S1x64x64 : Shape := ⟨3, ![1, 64, 64]⟩
abbrev S64x64 : Shape := ⟨2, ![64, 64]⟩
abbrev S1x64 : Shape := ⟨2, ![1, 64]⟩
abbrev S10000x128 : Shape := ⟨2, ![10000, 128]⟩
abbrev S1x1 : Shape := ⟨2, ![1, 1]⟩
abbrev S500000 : Shape := ⟨1, ![500000]⟩

abbrev nBuf : Space → Nat
  | .hbm => 21
  | .vmem => 10
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S500000x64, .f32⟩
  | .hbm, ⟨3, _⟩ => ⟨S2x2x64x64, .f32⟩
  | .hbm, ⟨4, _⟩ => ⟨S2x2x64, .f32⟩
  | .hbm, ⟨5, _⟩ => ⟨S2x2x64x64, .f32⟩
  | .hbm, ⟨6, _⟩ => ⟨S2x2x64, .f32⟩
  | .hbm, ⟨7, _⟩ => ⟨S2x2x64x64, .f32⟩
  | .hbm, ⟨8, _⟩ => ⟨S2x2x64, .f32⟩
  | .hbm, ⟨9, _⟩ => ⟨S2x64x64, .f32⟩
  | .hbm, ⟨10, _⟩ => ⟨S2x64, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S2x1000000, .i32⟩
  | .hbm, ⟨16, _⟩ => ⟨S2x1000000, .i32⟩
  | .hbm, ⟨17, _⟩ => ⟨S2x1000000, .i32⟩
  | .hbm, ⟨18, _⟩ => ⟨S2x1000000, .i32⟩
  | .hbm, ⟨19, _⟩ => ⟨S500000x1, .f32⟩
  | .hbm, ⟨20, _⟩ => ⟨S500000, .f32⟩
  | .local _ .vmem, ⟨0, _⟩ => ⟨S10000x64, .f32⟩
  | .local _ .vmem, ⟨1, _⟩ => ⟨S10000x64, .f32⟩
  | .local _ .vmem, ⟨2, _⟩ => ⟨S2x64x64, .f32⟩
  | .local _ .vmem, ⟨3, _⟩ => ⟨S2x64, .f32⟩
  | .local _ .vmem, ⟨4, _⟩ => ⟨S128x64, .f32⟩
  | .local _ .vmem, ⟨5, _⟩ => ⟨S64, .f32⟩
  | .local _ .vmem, ⟨6, _⟩ => ⟨S64x1, .f32⟩
  | .local _ .vmem, ⟨7, _⟩ => ⟨S1, .f32⟩
  | .local _ .vmem, ⟨8, _⟩ => ⟨S10000x1, .f32⟩
  | .local _ .vmem, ⟨9, _⟩ => ⟨S10000x1, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  inb_S2x64x64_S1x64x64_1_0_0 : ∀ a, (![1, 0, 0] : Fin 3 → Nat) a + S1x64x64.size a ≤ S2x64x64.size a
  inb_S2x64_S1x64_0_0 : ∀ a, (![0, 0] : Fin 2 → Nat) a + S1x64.size a ≤ S2x64.size a
  h_S1x64 : 0 < S1x64.numel
  shapeCasts_S1x64_S64 : S1x64.ShapeCasts S64
  inb_S2x64_S1x64_1_0 : ∀ a, (![1, 0] : Fin 2 → Nat) a + S1x64.size a ≤ S2x64.size a
  shapeCasts_S64_S1x64 : S64.ShapeCasts S1x64
  broadcasts_S1x64_S10000x64 : S1x64.Broadcasts S10000x64
  concatenates_S10000x64_S10000x64_S10000x128_d1 : Shape.Concatenates [S10000x64, S10000x64] S10000x128 1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  dot_S10000x64_S64x64_S10000x64_1_0_0_1_n_n_wf : DotDims.WF S10000x64 S64x64 S10000x64 [1] [0] [0] [1] [] []
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S2x64x64.size a
  hwx0_1 : ∀ i : grid0.Coords, EltTy.bits .f32 = 32 ∨ (Rect.block (s := S2x64x64) S2x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x1.size a ≤ S500000x1.size a
  hwx0_7 : ∀ i : grid0.Coords, EltTy.bits .f32 = 32 ∨ (Rect.block (s := S500000x1) S10000x1.size (cc0_transform_7 i) (hinb0_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S2x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S10000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x64 : Shape := ⟨2, ![500000, 64]⟩
abbrev S2x2x64x64 : Shape := ⟨4, ![2, 2, 64, 64]⟩
abbrev S2x2x64 : Shape := ⟨3, ![2, 2, 64]⟩
abbrev S2x64x64 : Shape := ⟨3, ![2, 64, 64]⟩
abbrev S2x64 : Shape := ⟨2, ![2, 64]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x1x64x64 : Shape := ⟨4, ![1, 1, 64, 64]⟩
abbrev S64x64 : Shape := ⟨2, ![64, 64]⟩
abbrev S1x1x64 : Shape := ⟨3, ![1, 1, 64]⟩
abbrev S1x64 : Shape := ⟨2, ![1, 64]⟩
abbrev S1x64x64 : Shape := ⟨3, ![1, 64, 64]⟩
abbrev S500000x128 : Shape := ⟨2, ![500000, 128]⟩
abbrev S500000x1 : Shape := ⟨2, ![500000, 1]⟩
abbrev S1x1 : Shape := ⟨2, ![1, 1]⟩
abbrev S500000 : Shape := ⟨1, ![500000]⟩

abbrev nBuf : Space → Nat
  | .hbm => 232
  | .vmem => 0
  | .smem => 0
  | _ => 0

abbrev hbmTy0_0 (i : Nat) : BufTy := match i % 128 with
  | 0 => ⟨S500000x64, .f32⟩
  | 1 => ⟨S500000x64, .f32⟩
  | 2 => ⟨S500000x64, .f32⟩
  | 3 => ⟨S2x2x64x64, .f32⟩
  | 4 => ⟨S2x2x64, .f32⟩
  | 5 => ⟨S2x2x64x64, .f32⟩
  | 6 => ⟨S2x2x64, .f32⟩
  | 7 => ⟨S2x2x64x64, .f32⟩
  | 8 => ⟨S2x2x64, .f32⟩
  | 9 => ⟨S2x64x64, .f32⟩
  | 10 => ⟨S2x64, .f32⟩
  | 11 => ⟨S128x64, .f32⟩
  | 12 => ⟨S64, .f32⟩
  | 13 => ⟨S64x1, .f32⟩
  | 14 => ⟨S1, .f32⟩
  | 15 => ⟨S2x1000000, .i32⟩
  | 16 => ⟨S2x1000000, .i32⟩
  | 17 => ⟨S2x1000000, .i32⟩
  | 18 => ⟨S2x1000000, .i32⟩
  | 19 => ⟨S1x1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x64, .f32⟩
  | 30 => ⟨S1x1000000, .i32⟩
  | 31 => ⟨S1000000, .i32⟩
  | 32 => ⟨S_, .f32⟩
  | 33 => ⟨S500000x64, .f32⟩
  | 34 => ⟨S1000000x1, .i32⟩
  | 35 => ⟨S500000x64, .f32⟩
  | 36 => ⟨S1x1x64x64, .f32⟩
  | 37 => ⟨S64x64, .f32⟩
  | 38 => ⟨S500000x64, .f32⟩
  | 39 => ⟨S1x1x64, .f32⟩
  | 40 => ⟨S64, .f32⟩
  | 41 => ⟨S1x64, .f32⟩
  | 42 => ⟨S500000x64, .f32⟩
  | 43 => ⟨S500000x64, .f32⟩
  | 44 => ⟨S1x1x64x64, .f32⟩
  | 45 => ⟨S64x64, .f32⟩
  | 46 => ⟨S500000x64, .f32⟩
  | 47 => ⟨S500000x64, .f32⟩
  | 48 => ⟨S1x1x64, .f32⟩
  | 49 => ⟨S64, .f32⟩
  | 50 => ⟨S1x64, .f32⟩
  | 51 => ⟨S500000x64, .f32⟩
  | 52 => ⟨S500000x64, .f32⟩
  | 53 => ⟨S1x1x64x64, .f32⟩
  | 54 => ⟨S64x64, .f32⟩
  | 55 => ⟨S500000x64, .f32⟩
  | 56 => ⟨S500000x64, .f32⟩
  | 57 => ⟨S1x1x64, .f32⟩
  | 58 => ⟨S64, .f32⟩
  | 59 => ⟨S1x64, .f32⟩
  | 60 => ⟨S500000x64, .f32⟩
  | 61 => ⟨S500000x64, .f32⟩
  | 62 => ⟨S_, .f32⟩
  | 63 => ⟨S500000x64, .f32⟩
  | 64 => ⟨S500000x64, .f32⟩
  | 65 => ⟨S1x1000000, .i32⟩
  | 66 => ⟨S1000000, .i32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x64, .f32⟩
  | 76 => ⟨S1x1000000, .i32⟩
  | 77 => ⟨S1000000, .i32⟩
  | 78 => ⟨S_, .f32⟩
  | 79 => ⟨S500000x64, .f32⟩
  | 80 => ⟨S1000000x1, .i32⟩
  | 81 => ⟨S500000x64, .f32⟩
  | 82 => ⟨S1x1x64x64, .f32⟩
  | 83 => ⟨S64x64, .f32⟩
  | 84 => ⟨S500000x64, .f32⟩
  | 85 => ⟨S1x1x64, .f32⟩
  | 86 => ⟨S64, .f32⟩
  | 87 => ⟨S1x64, .f32⟩
  | 88 => ⟨S500000x64, .f32⟩
  | 89 => ⟨S500000x64, .f32⟩
  | 90 => ⟨S1x1x64x64, .f32⟩
  | 91 => ⟨S64x64, .f32⟩
  | 92 => ⟨S500000x64, .f32⟩
  | 93 => ⟨S500000x64, .f32⟩
  | 94 => ⟨S1x1x64, .f32⟩
  | 95 => ⟨S64, .f32⟩
  | 96 => ⟨S1x64, .f32⟩
  | 97 => ⟨S500000x64, .f32⟩
  | 98 => ⟨S500000x64, .f32⟩
  | 99 => ⟨S1x1x64x64, .f32⟩
  | 100 => ⟨S64x64, .f32⟩
  | 101 => ⟨S500000x64, .f32⟩
  | 102 => ⟨S500000x64, .f32⟩
  | 103 => ⟨S1x1x64, .f32⟩
  | 104 => ⟨S64, .f32⟩
  | 105 => ⟨S1x64, .f32⟩
  | 106 => ⟨S500000x64, .f32⟩
  | 107 => ⟨S500000x64, .f32⟩
  | 108 => ⟨S_, .f32⟩
  | 109 => ⟨S500000x64, .f32⟩
  | 110 => ⟨S500000x64, .f32⟩
  | 111 => ⟨S1x64x64, .f32⟩
  | 112 => ⟨S64x64, .f32⟩
  | 113 => ⟨S500000x64, .f32⟩
  | 114 => ⟨S1x64, .f32⟩
  | 115 => ⟨S64, .f32⟩
  | 116 => ⟨S1x64, .f32⟩
  | 117 => ⟨S500000x64, .f32⟩
  | 118 => ⟨S500000x64, .f32⟩
  | 119 => ⟨S1x1000000, .i32⟩
  | 120 => ⟨S1000000, .i32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S500000x64, .f32⟩

abbrev hbmTy0_1 (i : Nat) : BufTy := match i % 128 with
  | 0 => ⟨S1000000x1, .i32⟩
  | 1 => ⟨S1000000x64, .f32⟩
  | 2 => ⟨S1x1000000, .i32⟩
  | 3 => ⟨S1000000, .i32⟩
  | 4 => ⟨S_, .f32⟩
  | 5 => ⟨S500000x64, .f32⟩
  | 6 => ⟨S1000000x1, .i32⟩
  | 7 => ⟨S500000x64, .f32⟩
  | 8 => ⟨S1x1x64x64, .f32⟩
  | 9 => ⟨S64x64, .f32⟩
  | 10 => ⟨S500000x64, .f32⟩
  | 11 => ⟨S1x1x64, .f32⟩
  | 12 => ⟨S64, .f32⟩
  | 13 => ⟨S1x64, .f32⟩
  | 14 => ⟨S500000x64, .f32⟩
  | 15 => ⟨S500000x64, .f32⟩
  | 16 => ⟨S1x1x64x64, .f32⟩
  | 17 => ⟨S64x64, .f32⟩
  | 18 => ⟨S500000x64, .f32⟩
  | 19 => ⟨S500000x64, .f32⟩
  | 20 => ⟨S1x1x64, .f32⟩
  | 21 => ⟨S64, .f32⟩
  | 22 => ⟨S1x64, .f32⟩
  | 23 => ⟨S500000x64, .f32⟩
  | 24 => ⟨S500000x64, .f32⟩
  | 25 => ⟨S1x1x64x64, .f32⟩
  | 26 => ⟨S64x64, .f32⟩
  | 27 => ⟨S500000x64, .f32⟩
  | 28 => ⟨S500000x64, .f32⟩
  | 29 => ⟨S1x1x64, .f32⟩
  | 30 => ⟨S64, .f32⟩
  | 31 => ⟨S1x64, .f32⟩
  | 32 => ⟨S500000x64, .f32⟩
  | 33 => ⟨S500000x64, .f32⟩
  | 34 => ⟨S_, .f32⟩
  | 35 => ⟨S500000x64, .f32⟩
  | 36 => ⟨S500000x64, .f32⟩
  | 37 => ⟨S1x1000000, .i32⟩
  | 38 => ⟨S1000000, .i32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S1x1000000, .i32⟩
  | 49 => ⟨S1000000, .i32⟩
  | 50 => ⟨S_, .f32⟩
  | 51 => ⟨S500000x64, .f32⟩
  | 52 => ⟨S1000000x1, .i32⟩
  | 53 => ⟨S500000x64, .f32⟩
  | 54 => ⟨S1x1x64x64, .f32⟩
  | 55 => ⟨S64x64, .f32⟩
  | 56 => ⟨S500000x64, .f32⟩
  | 57 => ⟨S1x1x64, .f32⟩
  | 58 => ⟨S64, .f32⟩
  | 59 => ⟨S1x64, .f32⟩
  | 60 => ⟨S500000x64, .f32⟩
  | 61 => ⟨S500000x64, .f32⟩
  | 62 => ⟨S1x1x64x64, .f32⟩
  | 63 => ⟨S64x64, .f32⟩
  | 64 => ⟨S500000x64, .f32⟩
  | 65 => ⟨S500000x64, .f32⟩
  | 66 => ⟨S1x1x64, .f32⟩
  | 67 => ⟨S64, .f32⟩
  | 68 => ⟨S1x64, .f32⟩
  | 69 => ⟨S500000x64, .f32⟩
  | 70 => ⟨S500000x64, .f32⟩
  | 71 => ⟨S1x1x64x64, .f32⟩
  | 72 => ⟨S64x64, .f32⟩
  | 73 => ⟨S500000x64, .f32⟩
  | 74 => ⟨S500000x64, .f32⟩
  | 75 => ⟨S1x1x64, .f32⟩
  | 76 => ⟨S64, .f32⟩
  | 77 => ⟨S1x64, .f32⟩
  | 78 => ⟨S500000x64, .f32⟩
  | 79 => ⟨S500000x64, .f32⟩
  | 80 => ⟨S_, .f32⟩
  | 81 => ⟨S500000x64, .f32⟩
  | 82 => ⟨S500000x64, .f32⟩
  | 83 => ⟨S1x64x64, .f32⟩
  | 84 => ⟨S64x64, .f32⟩
  | 85 => ⟨S500000x64, .f32⟩
  | 86 => ⟨S1x64, .f32⟩
  | 87 => ⟨S64, .f32⟩
  | 88 => ⟨S1x64, .f32⟩
  | 89 => ⟨S500000x64, .f32⟩
  | 90 => ⟨S500000x64, .f32⟩
  | 91 => ⟨S500000x128, .f32⟩
  | 92 => ⟨S500000x64, .f32⟩
  | 93 => ⟨S1x64, .f32⟩
  | 94 => ⟨S500000x64, .f32⟩
  | 95 => ⟨S500000x64, .f32⟩
  | 96 => ⟨S_, .f32⟩
  | 97 => ⟨S500000x64, .f32⟩
  | 98 => ⟨S500000x64, .f32⟩
  | 99 => ⟨S500000x1, .f32⟩
  | 100 => ⟨S1x1, .f32⟩
  | 101 => ⟨S500000x1, .f32⟩
  | 102 => ⟨S500000x1, .f32⟩
  | 103 => ⟨S500000, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_1 : Ref sig .tc := ⟨.hbm, 67, rfl⟩
abbrev main_v43 : Ref sig .tc := ⟨.hbm, 68, rfl⟩
abbrev main_v44 : Ref sig .tc := ⟨.hbm, 69, rfl⟩
abbrev main_c_2 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_3 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call1_cst : Ref sig .tc := ⟨.hbm, 108, rfl⟩
abbrev main_call1_v0 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_4 : Ref sig .tc := ⟨.hbm, 121, rfl⟩
abbrev main_v92 : Ref sig .tc := ⟨.hbm, 122, rfl⟩
abbrev main_v93 : Ref sig .tc := ⟨.hbm, 123, rfl⟩
abbrev main_c_5 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_6 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_call2_cst : Ref sig .tc := ⟨.hbm, 162, rfl⟩
abbrev main_call2_v0 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_c_7 : Ref sig .tc := ⟨.hbm, 167, rfl⟩
abbrev main_v133 : Ref sig .tc := ⟨.hbm, 168, rfl⟩
abbrev main_v134 : Ref sig .tc := ⟨.hbm, 169, rfl⟩
abbrev main_c_8 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_9 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_call3_cst : Ref sig .tc := ⟨.hbm, 208, rfl⟩
abbrev main_call3_v0 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_call4_cst : Ref sig .tc := ⟨.hbm, 224, rfl⟩
abbrev main_call4_v0 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩

abbrev nD : Nat := 1
abbrev τ : Topo := Topo.v7x

variable {F : FTy → Type} [FloatOps F]

class Facts₀ : Prop where
  slices_S2x1000000_S1x1000000_1_0 : S2x1000000.Slices ![1, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_0_0 : S2x1000000.Slices ![0, 0] S1x1000000
  bcast_S_S500000x64 : S_.BroadcastsInDim S500000x64 (![] : Fin 0 → Fin S500000x64.rank)
  slices_S2x2x64x64_S1x1x64x64_0_1_0_0 : S2x2x64x64.Slices ![0, 1, 0, 0] S1x1x64x64
  shapeCasts_S1x1x64x64_S64x64 : S1x1x64x64.ShapeCasts S64x64
  slices_S2x2x64_S1x1x64_0_1_0 : S2x2x64.Slices ![0, 1, 0] S1x1x64
  shapeCasts_S1x1x64_S64 : S1x1x64.ShapeCasts S64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  slices_S2x2x64x64_S1x1x64x64_0_0_0_0 : S2x2x64x64.Slices ![0, 0, 0, 0] S1x1x64x64
  slices_S2x2x64_S1x1x64_0_0_0 : S2x2x64.Slices ![0, 0, 0] S1x1x64
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x2x64x64_S1x1x64x64_1_1_0_0 : S2x2x64x64.Slices ![1, 1, 0, 0] S1x1x64x64
  slices_S2x2x64_S1x1x64_1_1_0 : S2x2x64.Slices ![1, 1, 0] S1x1x64
  slices_S2x2x64x64_S1x1x64x64_1_0_0_0 : S2x2x64x64.Slices ![1, 0, 0, 0] S1x1x64x64
  slices_S2x2x64_S1x1x64_1_0_0 : S2x2x64.Slices ![1, 0, 0] S1x1x64
  slices_S2x64x64_S1x64x64_1_0_0 : S2x64x64.Slices ![1, 0, 0] S1x64x64
  slices_S2x64_S1x64_1_0 : S2x64.Slices ![1, 0] S1x64
  concatenates_S500000x64_S500000x64_S500000x128_d1 : Shape.Concatenates [S500000x64, S500000x64] S500000x128 1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S500000x64_S1000000x1_S1000000x64_1_0_n_n_0_1_164_wf : GatherDims.WF S500000x64 S1000000x1 S1000000x64 [1] [0] [] [0] [] 1 ![1, 64]
  scatter_S500000x64_S1000000x1_S1000000x64_1_0_0_1_wf : ScatterDims.WF S500000x64 S1000000x1 S1000000x64 [1] [0] [0] 1
  dot_S500000x64_S64x64_S500000x64_1_0_0_1_n_n_wf : DotDims.WF S500000x64 S64x64 S500000x64 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KernelDots.lean ====
/-
  The kernel's three block products read at an index. At the extended reals a matrix product into a zero
  accumulator is, at output position `(p, j)`, the plain sum over the contracted coordinate `k` of
  `a (p, k) · b (k, j)`: the product's own contraction index has one axis, and is re-indexed by its one coordinate.
-/
import proofs.«422360_j40535901339974_1_alg».proof.Proof.Gen.KernelIdeal
import Idealize.ShloMosaic.Lib.ValueIdx
import Idealize.ShloMosaic.PureOps.Ideal.Laws

noncomputable section

open scoped BigOperators

namespace Cert.Head.KDots

open Cert.KernelIdeal Idealize.ShloMosaic Idealize.ShloMosaic.ValueIdx

/-! ### `dot_S10000x64_S64x64_S10000x64_1_0_0_1_n_n`: [10000, 64] × [64, 64] -/

theorem projDot_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem projDot_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem projDot_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem projDot_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into a zero accumulator the block product at `(p, j)` is `∑ k, a (p, k) · b (k, j)`. -/
theorem projDot_apply {φ₁ φ₂ : FTy} (a : FVec Ideal S10000x64 φ₁) (b : FVec Ideal S64x64 φ₂) (p : Fin 10000) (j : Fin 64) :
    matmul dot_S10000x64_S64x64_S10000x64_1_0_0_1_n_n none a b (constant (F := Ideal) S10000x64 .f32 0x00000000#32) (ix2 p j)
      = ∑ k : Fin 64, a (ix2 p k) * b (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k := funext fun a => Fin.ext (by
    match a with
    | ⟨0, _⟩ => exact projDot_lhs_0 _ _
    | ⟨1, _⟩ => exact (projDot_lhs_1 _ _).trans hk)
  have er : dot_S10000x64_S64x64_S10000x64_1_0_0_1_n_n.rhsIdx (ix2 p j) ((contrEquiv1 dot_S10000x64_S64x64_S10000x64_1_0_0_1_n_n 64 rfl rfl).symm k) = ix2 k j := funext fun a => Fin.ext (by
    match a with
    | ⟨0, _⟩ => exact (projDot_rhs_0 _ _).trans hk
    | ⟨1, _⟩ => exact projDot_rhs_1 _ _)
  rw [el, er]

/-! ### `dot_S10000x128_S128x64_S10000x64_1_0_0_1_n_n`: [10000, 128] × [128, 64] -/

theorem hidDot_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem hidDot_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem hidDot_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem hidDot_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Into a zero accumulator the block product at `(p, j)` is `∑ k, a (p, k) · b (k, j)`. -/
theorem hidDot_apply {φ₁ φ₂ : FTy} (a : FVec Ideal S10000x128 φ₁) (b : FVec Ideal S128x64 φ₂) (p : Fin 10000) (j : Fin 64) :
    matmul dot_S10000x128_S128x64_S10000x64_1_0_0_1_n_n none a b (constant (F := Ideal) S10000x64 .f32 0x00000000#32) (ix2 p j)
      = ∑ k : Fin 128, a (ix2 p k) * b (ix2 k j) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p j) ((contrEquiv1 dot_S10000x128_S128x64_S10000x64_1_0_0_1_n_n 128 rfl rfl).symm k) = ix2 p k := funext fun a => Fin.ext (by
    match a with
    | ⟨0, _⟩ => exact hidDot_lhs_0 _ _
    | ⟨1, _⟩ => exact (hidDot_lhs_1 _ _).trans hk)
  have er : dot_S10000x128_S128x64_S10000x64_1_0_0_1_n_n.rhsIdx (ix2 p j) ((contrEquiv1 dot_S10000x128_S128x64_S10000x64_1_0_0_1_n_n 128 rfl rfl).symm k) = ix2 k j := funext fun a => Fin.ext (by
    match a with
    | ⟨0, _⟩ => exact (hidDot_rhs_0 _ _).trans hk
    | ⟨1, _⟩ => exact hidDot_rhs_1 _ _)
  rw [el, er]

/-! ### `dot_S10000x64_S64x1_S10000x1_1_0_0_1_n_n`: [10000, 64] × [64, 1] -/

theorem outDot_lhs_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem outDot_lhs_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem outDot_rhs_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem outDot_rhs_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- Into a zero accumulator the block product at `(p, j)` is `∑ k, a (p, k) · b (k, j)`. -/
theorem outDot_apply {φ₁ φ₂ : FTy} (a : FVec Ideal S10000x64 φ₁) (b : FVec Ideal S64x1 φ₂) (p : Fin 10000) (j : Fin 1) :
    matmul dot_S10000x64_S64x1_S10000x1_1_0_0_1_n_n none a b (constant (F := Ideal) S10000x1 .f32 0x00000000#32) (ix2 p j)
      = ∑ k : Fin 64, a (ix2 p k) * b (ix2 k j) := by
  simp only [matmul]
  rw [Ideal.matmul_constant_zero_apply, ← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p j) ((contrEquiv1 dot_S10000x64_S64x1_S10000x1_1_0_0_1_n_n 64 rfl rfl).symm k) = ix2 p k := funext fun a => Fin.ext (by
    match a with
    | ⟨0, _⟩ => exact outDot_lhs_0 _ _
    | ⟨1, _⟩ => exact (outDot_lhs_1 _ _).trans hk)
  have er : dot_S10000x64_S64x1_S10000x1_1_0_0_1_n_n.rhsIdx (ix2 p j) ((contrEquiv1 dot_S10000x64_S64x1_S10000x1_1_0_0_1_n_n 64 rfl rfl).symm k) = ix2 k j := funext fun a => Fin.ext (by
    match a with
    | ⟨0, _⟩ => exact (outDot_rhs_0 _ _).trans hk
    | ⟨1, _⟩ => exact outDot_rhs_1 _ _)
  rw [el, er]

end Cert.Head.KDots

end
-- ==== Proof.HeadSpec.lean ====
/-
  The value both programs compute, one driver row at a time, over the extended reals.

  For a row `xr` of 64 driver features the network's head is
    * two affine projections of the row, `xr · wproj[h] + bproj[h]` for `h = 0, 1` (`proj`);
    * the two laid side by side into 128 features (`cat`: feature `j < 64` is the first projection's `j`,
      feature `64 ≤ j` the second's `j - 64`);
    * a 128 → 64 affine layer clipped below at zero, `max (cat · wfc1 + bfc1) 0` (`hid`);
    * a 64 → 1 affine layer, `hid · wfc2 + bfc2` (`out`).
  Every sum is a finite sum in the commutative monoid of extended reals, so its value does not depend on the order
  or the grouping in which a program adds its terms; nothing here distributes a product over a sum or cancels, so no
  finiteness of the inputs is needed. The zero the hidden layer is clipped at is kept as the float word both programs
  print for it.
-/
import Idealize.ShloMosaic.Lib.ValueIdx
import Idealize.ShloMosaic.PureOps.Ideal

noncomputable section

open scoped BigOperators

namespace Cert.Head

open Idealize.ShloMosaic Idealize.ShloMosaic.ValueIdx

/-- An array of extended reals of a literal shape. -/
abbrev Arr (s : Shape) : Type := s.Idx → EReal

/-- Projection `h` of a row at output feature `j`: `∑ k, xr k · wproj[h, k, j] + bproj[h, j]`. -/
def proj (xr : Fin 64 → EReal) (wp : Arr ⟨3, ![2, 64, 64]⟩) (bp : Arr ⟨2, ![2, 64]⟩) (h : Fin 2) (j : Fin 64) : EReal :=
  (∑ k : Fin 64, xr k * wp (ix3 h k j)) + bp (ix2 h j)

/-- The two projections side by side: 128 features, the first projection's then the second's. -/
def cat (xr : Fin 64 → EReal) (wp : Arr ⟨3, ![2, 64, 64]⟩) (bp : Arr ⟨2, ![2, 64]⟩) (j : Fin 128) : EReal :=
  if h : j.val < 64 then proj xr wp bp 0 ⟨j.val, h⟩ else proj xr wp bp 1 ⟨j.val - 64, by omega⟩

/-- The hidden layer at feature `j`: `max (∑ k, cat k · wfc1[k, j] + bfc1[j]) 0`. -/
def hid (xr : Fin 64 → EReal) (wp : Arr ⟨3, ![2, 64, 64]⟩) (bp : Arr ⟨2, ![2, 64]⟩) (w1 : Arr ⟨2, ![128, 64]⟩)
    (b1 : Arr ⟨1, ![64]⟩) (j : Fin 64) : EReal :=
  max ((∑ k : Fin 128, cat xr wp bp k * w1 (ix2 k j)) + b1 (ix1 j)) (Ideal.ofBits .f32 0x00000000#32)

/-- The head's one output for the row: `∑ k, hid k · wfc2[k, 0] + bfc2[0]`. -/
def out (xr : Fin 64 → EReal) (wp : Arr ⟨3, ![2, 64, 64]⟩) (bp : Arr ⟨2, ![2, 64]⟩) (w1 : Arr ⟨2, ![128, 64]⟩)
    (b1 : Arr ⟨1, ![64]⟩) (w2 : Arr ⟨2, ![64, 1]⟩) (b2 : Arr ⟨1, ![1]⟩) : EReal :=
  (∑ k : Fin 64, hid xr wp bp w1 b1 k * w2 (ix2 k (0 : Fin 1))) + b2 (ix1 (0 : Fin 1))

/-- Row `r` of a 64-column array. -/
abbrev row {n : Nat} (x : Arr ⟨2, ![n, 64]⟩) (r : Fin n) : Fin 64 → EReal := fun k => x (ix2 r k)

/-- The whole result: one output per driver row. -/
def result (x : Arr ⟨2, ![500000, 64]⟩) (wp : Arr ⟨3, ![2, 64, 64]⟩) (bp : Arr ⟨2, ![2, 64]⟩) (w1 : Arr ⟨2, ![128, 64]⟩)
    (b1 : Arr ⟨1, ![64]⟩) (w2 : Arr ⟨2, ![64, 1]⟩) (b2 : Arr ⟨1, ![1]⟩) : Arr ⟨1, ![500000]⟩ :=
  fun i => out (row x (i 0)) wp bp w1 b1 w2 b2

end Cert.Head

end
-- ==== Proof.KernelBody.lean ====
/-
  What the kernel's body computes for one block of 10000 driver rows, read at an index: at row `p` of the block
  the body's one stored value is the head's output (`Head.out`) for that row of the block, over the whole weight
  and bias arrays.

  The body loads the two projection matrices as the two [1, 64, 64] halves of the [2, 64, 64] weight array (the
  second half at leading offset 1) and the two projection biases as the two [1, 64] halves of the [2, 64] bias
  array, drops their unit axes, multiplies, adds each bias as one row broadcast over the block's rows, joins the
  two [10000, 64] results along the feature axis, multiplies by the [128, 64] matrix, adds its bias, clips at zero,
  multiplies by the [64, 1] matrix and adds the one-element bias. Changes of float format are the identity on
  extended reals.
-/
import proofs.«422360_j40535901339974_1_alg».proof.Proof.Gen.KernelIdeal.Frame
import proofs.«422360_j40535901339974_1_alg».proof.Proof.KernelDots
import proofs.«422360_j40535901339974_1_alg».proof.Proof.HeadSpec
import Idealize.ShloMosaic.Lib.ValueLayout
import Idealize.ShloMosaic.Lib.Pipeline.Value

noncomputable section

open scoped BigOperators

namespace Cert.Head.KBody

open Cert.KernelIdeal Cert.KernelIdeal.Gen Idealize.ShloMosaic Idealize.ShloMosaic.ValueIdx Cert.Head.KDots

/-! ## Layout operations of the body at an index -/

/-- A 64-vector cast to one row and broadcast over the block's rows reads the vector at the column. -/
theorem bias_row (v : FVec Ideal S64 .f32) (p : Fin 10000) (j : Fin 64) :
    broadcastTo S10000x64 (shapeCast S1x64 v shapeCasts_S64_S1x64) broadcasts_S1x64_S10000x64 (ix2 p j) = v (ix1 j) :=
  (broadcastTo_1b_ab_apply _ broadcasts_S1x64_S10000x64 p j).trans (shapeCast_a_1a_apply v shapeCasts_S64_S1x64 0 j)

/-- A [1, 64] half of the bias array with its unit axis dropped. -/
theorem half_row (v : FVec Ideal S1x64 .f32) (j : Fin 64) :
    shapeCast S64 v shapeCasts_S1x64_S64 (ix1 j) = v (ix2 (0 : Fin 1) j) :=
  shapeCast_1a_a_apply v shapeCasts_S1x64_S64 j

/-- A [1, 64, 64] half of the weight array with its unit axis dropped. -/
theorem half_mat (v : FVec Ideal S1x64x64 .f32) (k j : Fin 64) :
    shapeCast S64x64 v shapeCasts_S1x64x64_S64x64 (ix2 k j) = v (ix3 (0 : Fin 1) k j) :=
  shapeCast_1ab_ab_apply v shapeCasts_S1x64x64_S64x64 k j

/-- The one-element bias cast to [1, 1] and broadcast down the block's one output column. -/
theorem bias_one (v : FVec Ideal S1 .f32) (p : Fin 10000) (q : Fin 1) :
    broadcastTo S10000x1 (shapeCast S1x1 v shapeCasts_S1_S1x1) broadcasts_S1x1_S10000x1 (ix2 p q) = v (ix1 q) :=
  (broadcastTo_1b_ab_apply _ broadcasts_S1x1_S10000x1 p q).trans (shapeCast_a_1a_apply v shapeCasts_S1_S1x1 0 q)

/-- Two [10000, 64] blocks joined along the feature axis: feature `j < 64` is the first block's, `64 ≤ j` the
    second's at `j - 64`. -/
theorem joined (a b : FVec Ideal S10000x64 .f32) (p : Fin 10000) (j : Fin 128) :
    concatenate S10000x128 1 [⟨S10000x64, a⟩, ⟨S10000x64, b⟩] concatenates_S10000x64_S10000x64_S10000x128_d1 (ix2 p j)
      = if h : j.val < 64 then a (ix2 p ⟨j.val, h⟩) else b (ix2 p ⟨j.val - 64, by omega⟩) := by
  by_cases h : j.val < 64
  · rw [dif_pos h]
    exact concatenate_pair_apply_left 1 a b concatenates_S10000x64_S10000x64_S10000x128_d1 (ix2 p j) rfl (ix2 p ⟨j.val, h⟩)
      (fun b => match b with | ⟨0, _⟩ => rfl | ⟨1, _⟩ => rfl)
  · rw [dif_neg h]
    exact concatenate_pair_apply_right 1 a b concatenates_S10000x64_S10000x64_S10000x128_d1 (ix2 p j) rfl rfl
      (ix2 p ⟨j.val - 64, by omega⟩)
      (fun b hb => match b, hb with | ⟨0, _⟩, _ => rfl | ⟨1, _⟩, hb => absurd rfl hb)
      (by show j.val - 64 + 64 = j.val; omega)

/-! ## The body's stages at an index -/

/-- One projection: the block times a [1, 64, 64] half of the weights, plus a [1, 64] half of the biases. -/
theorem projStage (v0 : FVec Ideal S10000x64 .f32) (v2 : FVec Ideal S1x64x64 .f32) (v8 : FVec Ideal S1x64 .f32)
    (p : Fin 10000) (j : Fin 64) :
    addf (matmul dot_S10000x64_S64x64_S10000x64_1_0_0_1_n_n none (truncf .bf16 v0 bitsLt_bf16_f32)
        (truncf .bf16 (shapeCast S64x64 v2 shapeCasts_S1x64x64_S64x64) bitsLt_bf16_f32) (constant (F := Ideal) S10000x64 .f32 0x00000000#32))
      (broadcastTo S10000x64 (shapeCast S1x64 (shapeCast S64 v8 shapeCasts_S1x64_S64) shapeCasts_S64_S1x64) broadcasts_S1x64_S10000x64) (ix2 p j)
    = (∑ k : Fin 64, v0 (ix2 p k) * v2 (ix3 (0 : Fin 1) k j)) + v8 (ix2 (0 : Fin 1) j) := by
  rw [addf_apply, projDot_apply, bias_row, half_row]
  congr 1
  exact Finset.sum_congr rfl fun k _ => by rw [truncf_apply, truncf_apply, half_mat]

/-- The hidden layer: the joined block times the [128, 64] matrix, plus its bias, clipped below at zero. -/
theorem hidStage (c : FVec Ideal S10000x128 .f32) (v21 : FVec Ideal S128x64 .f32) (v23 : FVec Ideal S64 .f32)
    (p : Fin 10000) (j : Fin 64) :
    maximumf (addf (matmul dot_S10000x128_S128x64_S10000x64_1_0_0_1_n_n none (truncf .bf16 c bitsLt_bf16_f32)
          (truncf .bf16 v21 bitsLt_bf16_f32) (constant (F := Ideal) S10000x64 .f32 0x00000000#32))
        (broadcastTo S10000x64 (shapeCast S1x64 v23 shapeCasts_S64_S1x64) broadcasts_S1x64_S10000x64))
      (broadcast S10000x64 (Scalar.ofBits (F := Ideal) .f32 0x00000000#32)) (ix2 p j)
    = max ((∑ k : Fin 128, c (ix2 p k) * v21 (ix2 k j)) + v23 (ix1 j)) (Ideal.ofBits .f32 0x00000000#32) := by
  rw [maximumf_apply, addf_apply, hidDot_apply, bias_row]
  rfl

/-- The output layer: the hidden block times the [64, 1] matrix, plus the one-element bias. -/
theorem outStage (h : FVec Ideal S10000x64 .f32) (v31 : FVec Ideal S64x1 .f32) (v33 : FVec Ideal S1 .f32)
    (p : Fin 10000) (q : Fin 1) :
    addf (matmul dot_S10000x64_S64x1_S10000x1_1_0_0_1_n_n none (truncf .bf16 h bitsLt_bf16_f32)
        (truncf .bf16 v31 bitsLt_bf16_f32) (constant (F := Ideal) S10000x1 .f32 0x00000000#32))
      (broadcastTo S10000x1 (shapeCast S1x1 v33 shapeCasts_S1_S1x1) broadcasts_S1x1_S10000x1) (ix2 p q)
    = (∑ k : Fin 64, h (ix2 p k) * v31 (ix2 k q)) + v33 (ix1 q) := by
  rw [addf_apply, outDot_apply, bias_one]
  rfl

/-! ## The body's loads at an index -/

/-- The block of driver rows is loaded whole. -/
theorem ld_x (x0 : Vec Ideal S10000x64 .f32) (p : Fin 10000) (k : Fin 64) :
    View.ld x0 r0_0 (ix2 p k) = x0 (ix2 p k) :=
  congrArg x0 (funext fun a => Fin.ext (by
    match a with
    | ⟨0, _⟩ => show 0 + 1 * p.val = p.val; omega
    | ⟨1, _⟩ => show 0 + 1 * k.val = k.val; omega))

/-- The first [1, 64, 64] half of the projection weights is the array at leading coordinate 0. -/
theorem ld_w0 (x1 : Vec Ideal S2x64x64 .f32) (u : Fin 1) (k j : Fin 64) :
    View.ld x1 r0_1 (ix3 u k j) = x1 (ix3 (0 : Fin 2) k j) :=
  congrArg x1 (funext fun a => Fin.ext (by
    match a with
    | ⟨0, _⟩ => show 0 + 1 * u.val = 0; omega
    | ⟨1, _⟩ => show 0 + 1 * k.val = k.val; omega
    | ⟨2, _⟩ => show 0 + 1 * j.val = j.val; omega))

/-- The second half is the array at leading coordinate 1. -/
theorem ld_w1 (x1 : Vec Ideal S2x64x64 .f32) (u : Fin 1) (k j : Fin 64) :
    View.ld x1 r0_2 (ix3 u k j) = x1 (ix3 (1 : Fin 2) k j) :=
  congrArg x1 (funext fun a => Fin.ext (by
    match a with
    | ⟨0, _⟩ => show 1 + 1 * u.val = 1; omega
    | ⟨1, _⟩ => show 0 + 1 * k.val = k.val; omega
    | ⟨2, _⟩ => show 0 + 1 * j.val = j.val; omega))

/-- The first [1, 64] half of the projection biases is the array's row 0. -/
theorem ld_b0 (x2 : Vec Ideal S2x64 .f32) (u : Fin 1) (j : Fin 64) :
    View.ld x2 r0_3 (ix2 u j) = x2 (ix2 (0 : Fin 2) j) :=
  congrArg x2 (funext fun a => Fin.ext (by
    match a with
    | ⟨0, _⟩ => show 0 + 1 * u.val = 0; omega
    | ⟨1, _⟩ => show 0 + 1 * j.val = j.val; omega))

/-- The second half is row 1. -/
theorem ld_b1 (x2 : Vec Ideal S2x64 .f32) (u : Fin 1) (j : Fin 64) :
    View.ld x2 r0_4 (ix2 u j) = x2 (ix2 (1 : Fin 2) j) :=
  congrArg x2 (funext fun a => Fin.ext (by
    match a with
    | ⟨0, _⟩ => show 1 + 1 * u.val = 1; omega
    | ⟨1, _⟩ => show 0 + 1 * j.val = j.val; omega))

/-- The [128, 64] matrix is loaded whole. -/
theorem ld_w (x3 : Vec Ideal S128x64 .f32) (k : Fin 128) (j : Fin 64) :
    View.ld x3 r0_5 (ix2 k j) = x3 (ix2 k j) :=
  congrArg x3 (funext fun a => Fin.ext (by
    match a with
    | ⟨0, _⟩ => show 0 + 1 * k.val = k.val; omega
    | ⟨1, _⟩ => show 0 + 1 * j.val = j.val; omega))

/-- Its bias is loaded whole. -/
theorem ld_c (x4 : Vec Ideal S64 .f32) (j : Fin 64) : View.ld x4 r0_6 (ix1 j) = x4 (ix1 j) :=
  congrArg x4 (funext fun a => Fin.ext (by
    match a with
    | ⟨0, _⟩ => show 0 + 1 * j.val = j.val; omega))

/-- The [64, 1] matrix is loaded whole. -/
theorem ld_v (x5 : Vec Ideal S64x1 .f32) (k : Fin 64) (q : Fin 1) :
    View.ld x5 r0_7 (ix2 k q) = x5 (ix2 k q) :=
  congrArg x5 (funext fun a => Fin.ext (by
    match a with
    | ⟨0, _⟩ => show 0 + 1 * k.val = k.val; omega
    | ⟨1, _⟩ => show 0 + 1 * q.val = q.val; omega))

/-- Its one-element bias is loaded whole. -/
theorem ld_d (x6 : Vec Ideal S1 .f32) (q : Fin 1) : View.ld x6 r0_8 (ix1 q) = x6 (ix1 q) :=
  congrArg x6 (funext fun a => Fin.ext (by
    match a with
    | ⟨0, _⟩ => show 0 + 1 * q.val = q.val; omega))

/-! ## The body's stored value at a row of the block -/

/-- At row `p` of the block the body stores the head's output for that row of the block. -/
theorem body_apply (x0 : Vec Ideal S10000x64 .f32) (x1 : Vec Ideal S2x64x64 .f32) (x2 : Vec Ideal S2x64 .f32)
    (x3 : Vec Ideal S128x64 .f32) (x4 : Vec Ideal S64 .f32) (x5 : Vec Ideal S64x1 .f32) (x6 : Vec Ideal S1 .f32)
    (p : Fin 10000) (q : Fin 1) :
    k0_pay1 (F := Ideal) (View.ld x6 r0_8) (k0_pay2 (F := Ideal) (View.ld x0 r0_0) (View.ld x1 r0_1) (View.ld x1 r0_2) (View.ld x2 r0_3)
        (View.ld x2 r0_4) (View.ld x3 r0_5) (View.ld x4 r0_6) (View.ld x5 r0_7)) (ix2 p q)
      = Head.out (Head.row x0 p) x1 x2 x3 x4 x5 x6 := by
  obtain rfl : q = 0 := Subsingleton.elim q 0
  unfold k0_pay1 k0_pay2
  refine (outStage _ _ _ p 0).trans ?_
  unfold Head.out
  rw [ld_d]
  congr 1
  refine Finset.sum_congr rfl fun k _ => ?_
  rw [ld_v]
  congr 1
  refine (hidStage _ _ _ p k).trans ?_
  unfold Head.hid
  rw [ld_c]
  congr 2
  refine Finset.sum_congr rfl fun k' _ => ?_
  rw [ld_w]
  congr 1
  refine (joined _ _ p k').trans ?_
  unfold Head.cat
  by_cases h : k'.val < 64
  · rw [dif_pos h, dif_pos h]
    refine (projStage _ _ _ p _).trans ?_
    unfold Head.proj
    rw [ld_b0]
    congr 1
    exact Finset.sum_congr rfl fun k'' _ => by rw [ld_x, ld_w0]
  · rw [dif_neg h, dif_neg h]
    refine (projStage _ _ _ p _).trans ?_
    unfold Head.proj
    rw [ld_b1]
    congr 1
    exact Finset.sum_congr rfl fun k'' _ => by rw [ld_x, ld_w1]

end Cert.Head.KBody

end
-- ==== Proof.KernelValue.lean ====
/-
  The kernel's result as one function of its argument arrays.

  The grid has 50 points; point `t` stages rows `10000 t … 10000 t + 9999` of the driver features (the weight and
  bias arrays whole, at every point) and writes back rows `10000 t … 10000 t + 9999` of a [500000, 1] array: the
  body's stored block, which at row `p` is the head's output for row `10000 t + p` of the features. The 50 blocks
  tile the [500000, 1] array (row `r` lies in the block of point `r / 10000`), so after the region the array holds
  the head's output of every driver row; the one host operation after the region drops the unit axis.
-/
import proofs.«422360_j40535901339974_1_alg».proof.Proof.Gen.KernelIdeal.Frame
import proofs.«422360_j40535901339974_1_alg».proof.Proof.KernelBody
import proofs.«422360_j40535901339974_1_alg».proof.Proof.HeadSpec
import Idealize.ShloMosaic.Lib.Pipeline.Value
import Idealize.ShloMosaic.Lib.StableHlo.Run

noncomputable section

namespace Cert.Head

/-- The head's output depends on the row and the six parameter arrays only through their values. -/
theorem out_congr {xr xr' : Fin 64 → EReal} {wp wp' : Arr ⟨3, ![2, 64, 64]⟩} {bp bp' : Arr ⟨2, ![2, 64]⟩}
    {w1 w1' : Arr ⟨2, ![128, 64]⟩} {b1 b1' : Arr ⟨1, ![64]⟩} {w2 w2' : Arr ⟨2, ![64, 1]⟩} {b2 b2' : Arr ⟨1, ![1]⟩}
    (h0 : xr = xr') (h1 : wp = wp') (h2 : bp = bp') (h3 : w1 = w1') (h4 : b1 = b1') (h5 : w2 = w2') (h6 : b2 = b2') :
    out xr wp bp w1 b1 w2 b2 = out xr' wp' bp' w1' b1' w2' b2' := by
  subst h0 h1 h2 h3 h4 h5 h6; rfl

end Cert.Head

namespace Cert.Head.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, by their literal types -/

/-- The driver features. -/
abbrev xs (c : Dev nD) : Arr ⟨2, ![500000, 64]⟩ := V m c main_arg0
/-- The two projection matrices. -/
abbrev wp (c : Dev nD) : Arr ⟨3, ![2, 64, 64]⟩ := V m c main_arg9
/-- The two projection biases. -/
abbrev bp (c : Dev nD) : Arr ⟨2, ![2, 64]⟩ := V m c main_arg10
/-- The hidden layer's matrix. -/
abbrev w1 (c : Dev nD) : Arr ⟨2, ![128, 64]⟩ := V m c main_arg11
/-- The hidden layer's bias. -/
abbrev b1 (c : Dev nD) : Arr ⟨1, ![64]⟩ := V m c main_arg12
/-- The output layer's matrix. -/
abbrev w2 (c : Dev nD) : Arr ⟨2, ![64, 1]⟩ := V m c main_arg13
/-- The output layer's bias. -/
abbrev b2 (c : Dev nD) : Arr ⟨1, ![1]⟩ := V m c main_arg14

/-- The [500000, 1] array the region leaves: one head output per driver row. -/
def col (c : Dev nD) : Arr ⟨2, ![500000, 1]⟩ :=
  fun i => out (row (xs m c) (i 0)) (wp m c) (bp m c) (w1 m c) (b1 m c) (w2 m c) (b2 m c)

/-! ## What one grid point writes back -/

theorem hz : (![0, 0] : Fin 2 → Nat) = fun _ => 0 := funext fun a => by fin_cases a <;> rfl

/-- The body's stored block as a function of the block's row. -/
theorem body_fun (x0 : Vec Ideal S10000x64 .f32) (x1 : Vec Ideal S2x64x64 .f32) (x2 : Vec Ideal S2x64 .f32)
    (x3 : Vec Ideal S128x64 .f32) (x4 : Vec Ideal S64 .f32) (x5 : Vec Ideal S64x1 .f32) (x6 : Vec Ideal S1 .f32) :
    k0_pay1 (F := Ideal) (View.ld x6 r0_8) (k0_pay2 (F := Ideal) (View.ld x0 r0_0) (View.ld x1 r0_1) (View.ld x1 r0_2) (View.ld x2 r0_3)
        (View.ld x2 r0_4) (View.ld x3 r0_5) (View.ld x4 r0_6) (View.ld x5 r0_7))
      = fun j : S10000x1.Idx => out (row x0 (j 0)) x1 x2 x3 x4 x5 x6 := by
  funext j
  obtain ⟨p, q, rfl⟩ : ∃ (p : Fin 10000) (q : Fin 1), j = ix2 p q := ⟨j 0, j 1, eq_ix2 j⟩
  exact KBody.body_apply x0 x1 x2 x3 x4 x5 x6 p q

/-- The printed index maps, decided over the grid's 50 points: the feature window and the output window move
    down their arrays one block of rows per point; every other window stays at its array's origin. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of the feature block at point `t` is row `10000 t + p` of the features. -/
theorem row_eq (c : Dev nD) (t : Fin cfg0.N) (p : Fin 10000) (r : Fin 500000) (hr : r.val = t.val * 10000 + p.val) :
    row (iblk m c 0 t : Arr ⟨2, ![10000, 64]⟩) p = row (xs m c) r := by
  obtain ⟨e0, e1, -⟩ := idx_facts t
  funext k
  show (iblk m c 0 t : Arr ⟨2, ![10000, 64]⟩) (ix2 p k) = V m c main_arg0 (ix2 r k)
  unfold iblk
  rw [View.read_apply]
  show V m c main_arg0 _ = V m c main_arg0 _
  congr 1
  funext a
  apply Fin.ext
  match a with
  | ⟨0, _⟩ => show win0_0.index t (0 : Fin 2) * 10000 + 1 * p.val = r.val; omega
  | ⟨1, _⟩ => show win0_0.index t (1 : Fin 2) * 64 + 1 * k.val = k.val; omega

/-- The projection matrices' block is the whole array, at every point. -/
theorem blk_wp (c : Dev nD) (t : Fin cfg0.N) : (iblk m c 1 t : Arr ⟨3, ![2, 64, 64]⟩) = wp m c := by
  obtain ⟨-, -, e0, e1, e2, -⟩ := idx_facts t
  funext y
  unfold iblk
  rw [View.read_apply]
  show V m c main_arg9 _ = V m c main_arg9 y
  congr 1
  funext a
  apply Fin.ext
  match a with
  | ⟨0, _⟩ => show win0_1.index t (0 : Fin 3) * 2 + 1 * (y 0).val = (y 0).val; omega
  | ⟨1, _⟩ => show win0_1.index t (1 : Fin 3) * 64 + 1 * (y 1).val = (y 1).val; omega
  | ⟨2, _⟩ => show win0_1.index t (2 : Fin 3) * 64 + 1 * (y 2).val = (y 2).val; omega

/-- So is the projection biases'. -/
theorem blk_bp (c : Dev nD) (t : Fin cfg0.N) : (iblk m c 2 t : Arr ⟨2, ![2, 64]⟩) = bp m c := by
  obtain ⟨-, -, -, -, -, e0, e1, -⟩ := idx_facts t
  funext y
  unfold iblk
  rw [View.read_apply]
  show V m c main_arg10 _ = V m c main_arg10 y
  congr 1
  funext a
  apply Fin.ext
  match a with
  | ⟨0, _⟩ => show win0_2.index t (0 : Fin 2) * 2 + 1 * (y 0).val = (y 0).val; omega
  | ⟨1, _⟩ => show win0_2.index t (1 : Fin 2) * 64 + 1 * (y 1).val = (y 1).val; omega

/-- The hidden layer's matrix. -/
theorem blk_w1 (c : Dev nD) (t : Fin cfg0.N) : (iblk m c 3 t : Arr ⟨2, ![128, 64]⟩) = w1 m c := by
  obtain ⟨-, -, -, -, -, -, -, e0, e1, -⟩ := idx_facts t
  funext y
  unfold iblk
  rw [View.read_apply]
  show V m c main_arg11 _ = V m c main_arg11 y
  congr 1
  funext a
  apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The hidden layer's bias. -/
theorem blk_b1 (c : Dev nD) (t : Fin cfg0.N) : (iblk m c 4 t : Arr ⟨1, ![64]⟩) = b1 m c := by
  obtain ⟨-, -, -, -, -, -, -, -, -, e0, -⟩ := idx_facts t
  funext y
  unfold iblk
  rw [View.read_apply]
  show V m c main_arg12 _ = V m c main_arg12 y
  congr 1
  funext a
  apply Fin.ext
  match a with
  | ⟨0, _⟩ => show win0_4.index t (0 : Fin 1) * 64 + 1 * (y 0).val = (y 0).val; omega

/-- The output layer's matrix. -/
theorem blk_w2 (c : Dev nD) (t : Fin cfg0.N) : (iblk m c 5 t : Arr ⟨2, ![64, 1]⟩) = w2 m c := by
  obtain ⟨-, -, -, -, -, -, -, -, -, -, e0, e1, -⟩ := idx_facts t
  funext y
  unfold iblk
  rw [View.read_apply]
  show V m c main_arg13 _ = V m c main_arg13 y
  congr 1
  funext a
  apply Fin.ext
  match a with
  | ⟨0, _⟩ => show win0_5.index t (0 : Fin 2) * 64 + 1 * (y 0).val = (y 0).val; omega
  | ⟨1, _⟩ => show win0_5.index t (1 : Fin 2) * 1 + 1 * (y 1).val = (y 1).val; omega

/-- The output layer's bias. -/
theorem blk_b2 (c : Dev nD) (t : Fin cfg0.N) : (iblk m c 6 t : Arr ⟨1, ![1]⟩) = b2 m c := by
  obtain ⟨-, -, -, -, -, -, -, -, -, -, -, -, e0, -⟩ := idx_facts t
  funext y
  unfold iblk
  rw [View.read_apply]
  show V m c main_arg14 _ = V m c main_arg14 y
  congr 1
  funext a
  apply Fin.ext
  match a with
  | ⟨0, _⟩ => show win0_6.index t (0 : Fin 1) * 1 + 1 * (y 0).val = (y 0).val; omega

/-- WHAT POINT `t` WRITES BACK is block `t` of `col`. -/
theorem flushed_eq (c : Dev nD) (t : Fin cfg0.N) :
    (dats m 0 c).flushed 7 t = ((cfg0.win 7).blk t).view.read (Elt Ideal) (col m c) := by
  show (cfg0.win 7).cut (grid0.coords t) ((dats m 0 c).after 7 t) = _
  rw [after0_7]
  unfold out0_7
  rw [View.canon_unit_zero hz]
  refine (congrArg ((cfg0.win 7).cut (grid0.coords t)) (body_fun (iblk m c 0 t) (iblk m c 1 t) (iblk m c 2 t) (iblk m c 3 t)
    (iblk m c 4 t) (iblk m c 5 t) (iblk m c 6 t))).trans ?_
  obtain ⟨-, -, -, -, -, -, -, -, -, -, -, -, -, e7, -⟩ := idx_facts t
  funext j
  show out (row (iblk m c 0 t : Arr ⟨2, ![10000, 64]⟩) (j 0)) (iblk m c 1 t) (iblk m c 2 t) (iblk m c 3 t) (iblk m c 4 t) (iblk m c 5 t) (iblk m c 6 t)
    = out (row (xs m c) ((((cfg0.win 7).blk t).view.emb j) 0)) (wp m c) (bp m c) (w1 m c) (b1 m c) (w2 m c) (b2 m c)
  exact out_congr
    (row_eq m c t (j 0) ((((cfg0.win 7).blk t).view.emb j) 0) (by
      show win0_7.index t (0 : Fin 2) * 10000 + 1 * (j 0).val = t.val * 10000 + (j 0).val
      omega))
    (blk_wp m c t) (blk_bp m c t) (blk_w1 m c t) (blk_b1 m c t) (blk_w2 m c t) (blk_b2 m c t)

/-! ## The blocks tile the array -/

/-- An index of the [500000, 1] array is in point `t`'s block iff each coordinate is in the block's range. -/
theorem mem_blk (t : Fin cfg0.N) (i : S500000x1.Idx) :
    i ∈ ((cfg0.win 7).blk t).view.set ↔ ∀ a : Fin 2, win0_7.index t a * S10000x1.size a ≤ (i a).val ∧ (i a).val < win0_7.index t a * S10000x1.size a + S10000x1.size a := by
  show i ∈ ((View.whole main_v0).slice (win0_7.rect t)).set ↔ _
  rw [View.set_slice_whole, Rect.mem_set_unit]
  exact Iff.rfl

/-- Row `r` lies in the block of point `r / 10000`. -/
theorem covered (i : S500000x1.Idx) :
    ∃ t : Fin cfg0.N, (cfg0.win 7).flush t = true ∧ i ∈ ((cfg0.win 7).blk t).view.set := by
  have hi0 : (i 0).val < 500000 := (i 0).isLt
  have hi1 : (i 1).val < 1 := (i 1).isLt
  have hN : cfg0.N = 50 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, -, e7, e8⟩ := idx_facts t
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 1 ≤ (i 1).val ∧ (i 1).val < win0_7.index t (1 : Fin 2) * 1 + 1; omega

/-- THE ARRAY after the region: `col`. -/
theorem final (c : Dev nD) : (dats m 0 c).arrAt 7 cfg0.N = col m c :=
  (dats m 0 c).arrAt_eq_of_cover 7 (col m c) (fun t _ => flushed_eq m c t) covered

/-! ## The host operation after the region, and the run -/

/-- The [500000, 1] array with its unit axis dropped is the head's result. -/
theorem shaped (c : Dev nD) :
    shapeCast S500000 (col m c) shapeCasts_S500000x1_S500000
      = result (xs m c) (wp m c) (bp m c) (w1 m c) (b1 m c) (w2 m c) (b2 m c) := by
  funext i
  obtain ⟨r, rfl⟩ : ∃ r : Fin 500000, i = ix1 r := ⟨i 0, eq_ix1 i⟩
  exact (shapeCast_apply (col m c) shapeCasts_S500000x1_S500000 (ix1 r) (ix2 r (0 : Fin 1)) (by
    rw [Shape.rowMajor_val_two, Shape.rowMajor_val_one]
    show r.val * 1 + 0 = r.val
    omega)).trans rfl

/-- What the result buffer holds after the host operation that follows the region. -/
theorem tail_eq (c : Dev nD) :
    Pipeline.afterTail₀ cfgs (dats m) 0 (V0 m) [hostOps1] c main_v1
      = result (xs m c) (wp m c) (bp m c) (w1 m c) (b1 m c) (w2 m c) (b2 m c) := by
  unfold Pipeline.afterTail₀
  show StableHlo.after hostOps1 _ (Proc.devRef .tc main_v1) = _
  after_results
  rw [(Pipeline.withArrays_arr spec0 launch0.win.arr_inj c _ _ 7).trans (final m c)]
  exact shaped m c

/-- The kernel's run, read: the result buffer at the head's result of the argument arrays, the arguments unchanged. -/
theorem run : θ_run defs (onTc (τ := τ) (main (F := Ideal))) ⟨m, fun _ => 0, ρ⟩ fun r => ∀ c : Dev nD,
      r.2.mem ((c.tc : Thread nD τ).loc main_v1)
        = result (m ((c.tc : Thread nD τ).loc main_arg0)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 1).trans (((dats m 0 c).arrAt_in 1 rfl _).trans ((A_eq m c 1).trans (V_main_arg9 m c))),
      ((h c).1 2).trans (((dats m 0 c).arrAt_in 2 rfl _).trans ((A_eq m c 2).trans (V_main_arg10 m c))),
      ((h c).1 3).trans (((dats m 0 c).arrAt_in 3 rfl _).trans ((A_eq m c 3).trans (V_main_arg11 m c))),
      ((h c).1 4).trans (((dats m 0 c).arrAt_in 4 rfl _).trans ((A_eq m c 4).trans (V_main_arg12 m c))),
      ((h c).1 5).trans (((dats m 0 c).arrAt_in 5 rfl _).trans ((A_eq m c 5).trans (V_main_arg13 m c))),
      ((h c).1 6).trans (((dats m 0 c).arrAt_in 6 rfl _).trans ((A_eq m c 6).trans (V_main_arg14 m c))),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c))⟩)
    (run_main m ρ)

end Cert.Head.KValue

end
-- ==== Proof.RefValue.lean ====
/-
  The reference's result as the same function of the argument arrays.

  Of the reference's 213 host operations the result depends on twenty-five: the two projections of the driver
  features (a slice of the weights and of the biases at leading coordinate 0 or 1 with its unit axis dropped, a
  product contracted over the 64 features, the bias broadcast down the rows), their join along the feature axis,
  the 128 → 64 product plus bias clipped at zero, the 64 → 1 product plus bias, and the drop of the result's unit
  axis. Read at an index, stage by stage, that is the head's output for the index's row. (The message-passing
  stages over the other node types write buffers the result never reads.)
-/
import proofs.«422360_j40535901339974_1_alg».proof.Proof.RefRead
import proofs.«422360_j40535901339974_1_alg».proof.Proof.HeadSpec
import Idealize.ShloMosaic.Lib.Pipeline.Value

noncomputable section

open scoped BigOperators

namespace Cert.Head.RValue

open Cert.ReferenceIdeal Cert.ReferenceIdeal.ReadP Idealize.ShloMosaic Idealize.ShloMosaic.ValueIdx

variable (x0 : (⟨S500000x64, .f32⟩ : BufTy).Contents (Elt Ideal)) (x9 : (⟨S2x64x64, .f32⟩ : BufTy).Contents (Elt Ideal)) (x10 : (⟨S2x64, .f32⟩ : BufTy).Contents (Elt Ideal))
  (x11 : (⟨S128x64, .f32⟩ : BufTy).Contents (Elt Ideal)) (x12 : (⟨S64, .f32⟩ : BufTy).Contents (Elt Ideal)) (x13 : (⟨S64x1, .f32⟩ : BufTy).Contents (Elt Ideal)) (x14 : (⟨S1, .f32⟩ : BufTy).Contents (Elt Ideal))

/-- The reference's projection 0 at row `r`, feature `j`: a slice of the weights and of the biases at leading
    coordinate 0, their unit axes dropped, the product, the bias broadcast down the rows. -/
theorem proj0 (r : Fin 500000) (j : Fin 64) :
    val_main_v89 (F := Ideal) x0 x9 x10 (ix2 r j) = proj (row x0 r) x9 x10 0 j := by
  have hj : j.val < 64 := j.isLt
  rw [val_main_v89_apply, val_main_v84_apply, val_main_v88_apply, val_main_v87_apply, val_main_v86_apply, val_main_v85_apply]
  unfold proj
  show (∑ k : Fin 64, _) + _ = (∑ k : Fin 64, _) + _
  congr 1
  · refine Finset.sum_congr rfl fun k _ => ?_
    have hk : k.val < 64 := k.isLt
    rw [val_main_v83_apply, val_main_v82_apply]
    show x0 _ * x9 _ = x0 (ix2 r k) * x9 (ix3 (0 : Fin 2) k j)
    congr 2
    · funext a
      apply Fin.ext
      match a with
      | ⟨0, _⟩ => rfl
      | ⟨1, _⟩ => rfl
    · funext a
      apply Fin.ext
      match a with
      | ⟨0, _⟩ => rfl
      | ⟨1, _⟩ => show (k.val * 64 + j.val) / 64 % 64 = k.val; omega
      | ⟨2, _⟩ => show (k.val * 64 + j.val) % 64 = j.val; omega
  · show x10 _ = x10 (ix2 (0 : Fin 2) j)
    congr 1
    funext a
    apply Fin.ext
    match a with
    | ⟨0, _⟩ => rfl
    | ⟨1, _⟩ => show j.val % 64 = j.val; omega

/-- The reference's projection 1 at row `r`, feature `j`: a slice of the weights and of the biases at leading
    coordinate 1, their unit axes dropped, the product, the bias broadcast down the rows. -/
theorem proj1 (r : Fin 500000) (j : Fin 64) :
    val_main_v179 (F := Ideal) x0 x9 x10 (ix2 r j) = proj (row x0 r) x9 x10 1 j := by
  have hj : j.val < 64 := j.isLt
  rw [val_main_v179_apply, val_main_v174_apply, val_main_v178_apply, val_main_v177_apply, val_main_v176_apply, val_main_v175_apply]
  unfold proj
  show (∑ k : Fin 64, _) + _ = (∑ k : Fin 64, _) + _
  congr 1
  · refine Finset.sum_congr rfl fun k _ => ?_
    have hk : k.val < 64 := k.isLt
    rw [val_main_v173_apply, val_main_v172_apply]
    show x0 _ * x9 _ = x0 (ix2 r k) * x9 (ix3 (1 : Fin 2) k j)
    congr 2
    · funext a
      apply Fin.ext
      match a with
      | ⟨0, _⟩ => rfl
      | ⟨1, _⟩ => rfl
    · funext a
      apply Fin.ext
      match a with
      | ⟨0, _⟩ => show 1 + 0 = 1; rfl
      | ⟨1, _⟩ => show (k.val * 64 + j.val) / 64 % 64 = k.val; omega
      | ⟨2, _⟩ => show (k.val * 64 + j.val) % 64 = j.val; omega
  · show x10 _ = x10 (ix2 (1 : Fin 2) j)
    congr 1
    funext a
    apply Fin.ext
    match a with
    | ⟨0, _⟩ => show 1 + 0 = 1; rfl
    | ⟨1, _⟩ => show j.val % 64 = j.val; omega

/-- Two [500000, 64] arrays joined along the feature axis: feature `j < 64` is the first's, `64 ≤ j` the second's
    at `j - 64`. -/
theorem joined (a b : FVec Ideal S500000x64 .f32) (hc : Shape.Concatenates [S500000x64, S500000x64] S500000x128 1)
    (r : Fin 500000) (j : Fin 128) :
    concatenate S500000x128 1 [⟨S500000x64, a⟩, ⟨S500000x64, b⟩] hc (ix2 r j)
      = if h : j.val < 64 then a (ix2 r ⟨j.val, h⟩) else b (ix2 r ⟨j.val - 64, by omega⟩) := by
  by_cases h : j.val < 64
  · rw [dif_pos h]
    exact concatenate_pair_apply_left 1 a b hc (ix2 r j) rfl (ix2 r ⟨j.val, h⟩)
      (fun b => match b with | ⟨0, _⟩ => rfl | ⟨1, _⟩ => rfl)
  · rw [dif_neg h]
    exact concatenate_pair_apply_right 1 a b hc (ix2 r j) rfl rfl
      (ix2 r ⟨j.val - 64, by omega⟩)
      (fun b hb => match b, hb with | ⟨0, _⟩, _ => rfl | ⟨1, _⟩, hb => absurd rfl hb)
      (by show j.val - 64 + 64 = j.val; omega)

/-- The join of the two projections along the feature axis. -/
theorem cat_eq (r : Fin 500000) (j : Fin 128) :
    val_main_v180 (F := Ideal) x0 x9 x10 (ix2 r j) = cat (row x0 r) x9 x10 j := by
  unfold val_main_v180 cat
  rw [joined]
  by_cases h : j.val < 64
  · rw [dif_pos h, dif_pos h]
    exact proj0 x0 x9 x10 r ⟨j.val, h⟩
  · rw [dif_neg h, dif_neg h]
    exact proj1 x0 x9 x10 r ⟨j.val - 64, by omega⟩

/-- The hidden layer. -/
theorem hid_eq (r : Fin 500000) (j : Fin 64) :
    val_main_v185 (F := Ideal) x0 x9 x10 x11 x12 (ix2 r j) = hid (row x0 r) x9 x10 x11 x12 j := by
  rw [val_main_v185_apply, val_main_v184_apply, val_main_v181_apply, val_main_v183_apply, val_main_v182_apply,
    val_main_call4_v0_apply, val_main_call4_cst_apply]
  unfold hid
  show max ((∑ k : Fin 128, _) + _) _ = max ((∑ k : Fin 128, _) + _) _
  congr 2
  · refine Finset.sum_congr rfl fun k _ => ?_
    show val_main_v180 (F := Ideal) x0 x9 x10 _ * x11 _ = cat (row x0 r) x9 x10 k * x11 (ix2 k j)
    rw [← cat_eq x0 x9 x10 r k]
    congr 2
    · funext a
      apply Fin.ext
      match a with
      | ⟨0, _⟩ => rfl
      | ⟨1, _⟩ => rfl
    · funext a
      apply Fin.ext
      match a with
      | ⟨0, _⟩ => rfl
      | ⟨1, _⟩ => rfl
  · show x12 _ = x12 (ix1 j)
    congr 1
    funext a
    apply Fin.ext
    match a with
    | ⟨0, _⟩ => rfl

/-- The reference's result is the head's result of its argument arrays. -/
theorem result_eq :
    val_main_v190 (F := Ideal) x0 x9 x10 x11 x12 x13 x14 = result x0 x9 x10 x11 x12 x13 x14 := by
  funext i
  obtain ⟨r, rfl⟩ : ∃ r : Fin 500000, i = ix1 r := ⟨i 0, eq_ix1 i⟩
  rw [val_main_v190_apply, val_main_v189_apply, val_main_v186_apply, val_main_v188_apply, val_main_v187_apply]
  unfold result out
  show (∑ k : Fin 64, _) + _ = (∑ k : Fin 64, _) + _
  congr 1
  · refine Finset.sum_congr rfl fun k _ => ?_
    show val_main_v185 (F := Ideal) x0 x9 x10 x11 x12 _ * x13 _ = hid (row x0 r) x9 x10 x11 x12 k * x13 (ix2 k (0 : Fin 1))
    rw [← hid_eq x0 x9 x10 x11 x12 r k]
    congr 2
    · funext a
      apply Fin.ext
      match a with
      | ⟨0, _⟩ => show r.val / 1 = r.val; omega
      | ⟨1, _⟩ => rfl
    · funext a
      apply Fin.ext
      match a with
      | ⟨0, _⟩ => rfl
      | ⟨1, _⟩ => rfl
  · show x14 _ = x14 (ix1 (0 : Fin 1))
    congr 1
    funext a
    apply Fin.ext
    match a with
    | ⟨0, _⟩ => rfl

end Cert.Head.RValue

end
-- ==== Proof.lean ====
/-
  The certificate: the kernel and the reference compute the same function of the inputs over the extended reals.

  The reference runs two metapath message-passing loops over the three node types and then reads its output off
  the drivers' features alone: drivers are only ever a source of a hop, so the loops update the races' and the
  results' features and leave the drivers' as given, and the output is
      relu (concat (x · wproj[0] + bproj[0], x · wproj[1] + bproj[1]) · wfc1 + bfc1) · wfc2 + bfc2
  of the drivers' features `x`, one number per driver. The kernel computes exactly that, 10000 drivers at a time.
  Both are the function `Head.result` of the seven arrays it reads (HeadSpec): the kernel's run is read block by
  block and through the reshape that follows the region (KernelBody, KernelValue), the reference's run stage by
  stage along the twenty-five operations its result depends on (RefValue). The sums on the two sides are the same
  finite sums of the same products; no law beyond that is used, so the inputs' finiteness is not needed.
  The kernel's two frames are the generated ones and the reference's is its run with the result dropped; the
  idealization rewrote nothing, so `preserves` is trivial.
-/
import proofs.«422360_j40535901339974_1_alg».proof.Defs
import proofs.«422360_j40535901339974_1_alg».proof.Proof.Gen.Kernel
import proofs.«422360_j40535901339974_1_alg».proof.Proof.Gen.Kernel.Skeleton
import proofs.«422360_j40535901339974_1_alg».proof.Proof.Gen.Kernel.Launch
import proofs.«422360_j40535901339974_1_alg».proof.Proof.Gen.Kernel.Points
import proofs.«422360_j40535901339974_1_alg».proof.Proof.Gen.Kernel.Frame
import proofs.«422360_j40535901339974_1_alg».proof.Proof.Gen.KernelIdeal
import proofs.«422360_j40535901339974_1_alg».proof.Proof.Gen.KernelIdeal.Skeleton
import proofs.«422360_j40535901339974_1_alg».proof.Proof.Gen.KernelIdeal.Launch
import proofs.«422360_j40535901339974_1_alg».proof.Proof.Gen.KernelIdeal.Points
import proofs.«422360_j40535901339974_1_alg».proof.Proof.Gen.KernelIdeal.Frame
import proofs.«422360_j40535901339974_1_alg».proof.Proof.Gen.ReferenceIdeal
import proofs.«422360_j40535901339974_1_alg».proof.Proof.Gen.Pre_finite_inputs
import proofs.«422360_j40535901339974_1_alg».proof.Proof.RefRun
import proofs.«422360_j40535901339974_1_alg».proof.Proof.RefRead
import proofs.«422360_j40535901339974_1_alg».proof.Proof.KernelValue
import proofs.«422360_j40535901339974_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both runs end with the result buffer at the head's result of the
    same seven arrays. -/
theorem algebraic : Cert.algebraic_KernelIdeal_ReferenceIdeal := by
  intro m ρ m' ρ' _ hagree
  refine ⟨_, Cert.Head.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15, a16, a17, a18⟩ := hagree c
  rw [Cert.ReferenceIdeal.ReadP.val_main_v190_eq, Cert.Head.RValue.result_eq, a0, a9, a10, a11, a12, a13, a14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
